-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S16x1x8192 : Shape := ⟨3, ![16, 1, 8192]⟩
abbrev S256x8192 : Shape := ⟨2, ![256, 8192]⟩
abbrev S1x1x8192 : Shape := ⟨3, ![1, 1, 8192]⟩
abbrev S8192 : Shape := ⟨1, ![8192]⟩
abbrev S_ : Shape := ⟨0, ![]⟩

abbrev nBuf : Space → Nat
  | .hbm => 15
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S16x1x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S1x1x8192, .f32⟩
  | .local _ .vmem, ⟨3, _⟩ => ⟨S1x1x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S8192 : S256x8192.Reduces [0] S8192
  shapeCasts_S8192_S1x1x8192 : S8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  reducesTo_S16x1x8192_S_d0_1_2 : S16x1x8192.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x8192.size a
  hwx0_1 : ∀ i : grid0.Coords, EltTy.bits .f32 = 32 ∨ (Rect.block (s := S16x1x8192) S1x1x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .i1⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_v10 : Ref sig .tc := ⟨.hbm, 23, rfl⟩
abbrev main_cst_7 : Ref sig .tc := ⟨.hbm, 24, rfl⟩
abbrev main_call2_v0 : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.MaskedLogSum.lean ====
/-
  The mathematics shared by both programs, over the extended reals, with no program in sight.

  Both programs compute, from one array `x` of 4096 × 8192 extended reals,
      loss = if 0 < total then log (1 + max total 0) else 1,   total = C + ½ · Σ_{i,j} ℓ(x i j),
  where `ℓ a = log a` for `a ≠ 0` and `ℓ 0 = 0` (the masked logarithm) and `C` is one f32 literal, the same word
  on both sides.  They differ only in how the double sum is arranged: the reference sums all 4096 · 8192 terms
  at once; the kernel cuts the rows into 16 tiles of 256 rows, sums each tile down its rows into one row of 8192
  partial sums, and then sums the 16 × 1 × 8192 partial sums.  Row `256·a + r` of the array is row `r` of tile `a`,
  and `(a, r) ↦ 256·a + r` is a bijection `Fin 16 × Fin 256 ≃ Fin 4096`; addition of extended reals is commutative
  and associative (with `⊤ + ⊥ = ⊥` it is still a commutative monoid), so re-indexing the finite sum through that
  bijection and exchanging the order of summation proves the two arrangements equal at EVERY input: no finiteness
  is used.
-/
import Idealize.ShloMosaic.PureOps.Ideal
import Idealize.ShloMosaic.PureOps.Ideal.Laws
import Idealize.ShloMosaic.Lib.ValueIdx

noncomputable section

open scoped BigOperators

namespace Cert.MaskedLogSum

open Idealize.ShloMosaic Idealize.ShloMosaic.ValueIdx

/-! ## Rows by tile -/

/-- Row `r` of row tile `a` is row `256·a + r` of the array. -/
def tileRow (a : Fin 16) (r : Fin 256) : Fin 4096 := ⟨256 * a.val + r.val, by have := a.isLt; have := r.isLt; omega⟩

theorem tileRow_val (a : Fin 16) (r : Fin 256) : (tileRow a r).val = 256 * a.val + r.val := rfl

/-- Every row is exactly one (tile, row in the tile): quotient and remainder by 256. -/
def tileEquiv : Fin 16 × Fin 256 ≃ Fin 4096 where
  toFun p := tileRow p.1 p.2
  invFun i := (⟨i.val / 256, by have := i.isLt; omega⟩, ⟨i.val % 256, by omega⟩)
  left_inv p := by
    obtain ⟨a, r⟩ := p
    have ha := a.isLt
    have hr := r.isLt
    refine Prod.ext (Fin.ext ?_) (Fin.ext ?_)
    · show (256 * a.val + r.val) / 256 = a.val
      omega
    · show (256 * a.val + r.val) % 256 = r.val
      omega
  right_inv i := by
    apply Fin.ext
    show 256 * (i.val / 256) + i.val % 256 = i.val
    omega

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- THE RE-ARRANGEMENT. Summing, over the 16 × 1 × 8192 positions (tile, 0, column), the sum down the tile's 256 rows
    of that column, is summing over all 4096 × 8192 entries: in any commutative monoid. -/
theorem sum_tiles {M : Type*} [AddCommMonoid M] (g : (⟨2, ![4096, 8192]⟩ : Shape).Idx → M) :
    ∑ a : Fin 16, ∑ _b : Fin 1, ∑ c : Fin 8192, ∑ r : Fin 256, g (ix2 (tileRow a r) c) = ∑ i, g i := by
  rw [sum_idx2, ← Equiv.sum_comp tileEquiv (fun i => ∑ c : Fin 8192, g (ix2 i c)), Fintype.sum_prod_type]
  refine Finset.sum_congr rfl fun a _ => ?_
  rw [Fin.sum_univ_one, Finset.sum_comm]
  rfl

/-! ## The masked logarithm and the partial sums -/

/-- The masked logarithm: `log a` off zero, `0` at zero (so the `-∞` of `log 0` never enters the sum). -/
def maskedLog (a : EReal) : EReal := if a = 0 then 0 else Ideal.log a

/-- One tile's column sums: entry (0, 0, c) is the sum down the 256 rows of column `c` of the masked logarithms. -/
def tileSums (x : (⟨2, ![256, 8192]⟩ : Shape).Idx → EReal) : (⟨3, ![1, 1, 8192]⟩ : Shape).Idx → EReal :=
  fun j => ∑ r : Fin 256, maskedLog (x (ix2 r (j 2)))

/-- All the tiles' column sums: entry (a, 0, c) is the sum down the 256 rows of tile `a` of column `c`. -/
def partialSums (x : (⟨2, ![4096, 8192]⟩ : Shape).Idx → EReal) : (⟨3, ![16, 1, 8192]⟩ : Shape).Idx → EReal :=
  fun j => ∑ r : Fin 256, maskedLog (x (ix2 (tileRow (j 0) r) (j 2)))

/-- The partial sums add up to the sum of all the masked logarithms. -/
theorem sum_partialSums (x : (⟨2, ![4096, 8192]⟩ : Shape).Idx → EReal) :
    ∑ j, partialSums x j = ∑ i, maskedLog (x i) := by
  rw [sum_idx3]
  exact sum_tiles fun i => maskedLog (x i)

/-- The sum of all the masked logarithms, as the host's `reduce add` from the zero word leaves it in a rank-0 array. -/
def sumLog (x : (⟨2, ![4096, 8192]⟩ : Shape).Idx → EReal) : FVec Ideal ⟨0, ![]⟩ .f32 :=
  fun _ => Ideal.ofBits .f32 0x00000000#32 + ∑ i, maskedLog (x i)

/-- The host's sum of the partial sums over all three axes, from the zero word, is that total: a host float sum into
    rank 0 is the initial value plus the sum over every index, and the partial sums add up to the whole. -/
theorem hostSum_partialSums (x : (⟨2, ![4096, 8192]⟩ : Shape).Idx → EReal)
    (h : (⟨3, ![16, 1, 8192]⟩ : Shape).ReducesTo [0, 1, 2] ⟨0, ![]⟩) (hS : 0 < (⟨0, ![]⟩ : Shape).numel) :
    Host.reduceAdd (F := Ideal) (φ := .f32) (partialSums x) (constant (F := Ideal) ⟨0, ![]⟩ .f32 0x00000000#32) h hS = sumLog x := by
  funext i
  simp only [Host.reduceAdd, Ideal.hostReduceAdd_def]
  rw [Ideal.hostReduceAdd_total h (fun b => b.elim0) _ _ i, sum_partialSums]
  rfl

/-! ## The two programs' element terms are the masked logarithm -/

/-- The f32 zero word is the extended real `0`. -/
theorem zero_word : Ideal.ofBits .f32 0x00000000#32 = 0 := Ideal.ofBits_zero_f32

/-- The kernel's element: select on the ordered comparison `a ≠ 0` between `log a` and `0`. -/
theorem kernel_elem (a : Ideal .f32) :
    Scalar.select (FloatOps.cmpf .one a (Scalar.ofBits (F := Ideal) .f32 0x00000000#32)) (FloatOps.log a)
      (Scalar.ofBits (F := Ideal) .f32 0x00000000#32) = maskedLog a := by
  have hs : Scalar.ofBits (F := Ideal) .f32 0x00000000#32 = (0 : EReal) := zero_word
  rw [hs, Ideal.cmpf_def, Ideal.log_def]
  unfold maskedLog Ideal.cmp Scalar.select
  by_cases h : a = 0
  · simp [h]
  · simp [h]

/-- The reference's element: the same select, on the unordered comparison (the same relation on the extended reals,
    where nothing is unordered), of the logarithm of the GUARDED argument (`a` off zero, `1` at zero). Off zero the guard is
    `a` itself; at zero the outer select discards the logarithm whatever it is. -/
theorem reference_elem (a : Ideal .f32) :
    Scalar.select (FloatOps.cmpf .une a (FloatOps.ofBits (F := Ideal) .f32 0x00000000#32))
      (FloatOps.hostUnary .log
        (Scalar.select (FloatOps.cmpf .une a (FloatOps.ofBits (F := Ideal) .f32 0x00000000#32)) a (FloatOps.ofBits (F := Ideal) .f32 0x3F800000#32)))
      (FloatOps.ofBits (F := Ideal) .f32 0x00000000#32) = maskedLog a := by
  rw [Ideal.ofBits_def, zero_word, Ideal.cmpf_def, Ideal.hostUnary_log_def]
  unfold maskedLog Ideal.cmp Scalar.select
  by_cases h : a = 0
  · simp [h]
  · simp [h]

/-! ## The scalar tail both programs share -/

/-- From the sum `s` of the masked logarithms (a rank-0 array) to the loss: `total = C + ½·s`, then
    `log (1 + max total 0)` where `0 < total`, else `1`. The literals are kept as their f32 words: both programs print
    the same words, so they are never evaluated. -/
def lossOf (s : FVec Ideal ⟨0, ![]⟩ .f32) : FVec Ideal ⟨0, ![]⟩ .f32 :=
  select
    (cmpf .ogt (addf (constant (F := Ideal) ⟨0, ![]⟩ .f32 0x4C359FC7#32) (mulf (constant (F := Ideal) ⟨0, ![]⟩ .f32 0x3F000000#32) s))
      (constant (F := Ideal) ⟨0, ![]⟩ .f32 0x00000000#32))
    (Host.log1p (F := Ideal) (maximumf (addf (constant (F := Ideal) ⟨0, ![]⟩ .f32 0x4C359FC7#32) (mulf (constant (F := Ideal) ⟨0, ![]⟩ .f32 0x3F000000#32) s))
      (constant (F := Ideal) ⟨0, ![]⟩ .f32 0x00000000#32)))
    (constant (F := Ideal) ⟨0, ![]⟩ .f32 0x3F800000#32)

end Cert.MaskedLogSum

end
-- ==== Proof.ReferenceValue.lean ====
/-
  What the reference computes, at the extended reals: its run (the generated run of its host operations) ends with the
  result at the shared tail `lossOf` of the total `sumLog` of the masked logarithms of the argument array. The generated
  read-at-an-index lemmas take the result apart one operation at a time; what is proved here is that the reference's
  element term — `where(x ≠ 0, log(where(x ≠ 0, x, 1)), 0)` — is the masked logarithm, and that its host sum from the
  zero word is the total.
-/
import proofs.«428072_j73607149519054_3_alg».proof.Proof.Gen.ReferenceIdeal.Run
import proofs.«428072_j73607149519054_3_alg».proof.Proof.Gen.ReferenceIdeal.Read
import proofs.«428072_j73607149519054_3_alg».proof.Proof.MaskedLogSum

noncomputable section

open scoped BigOperators

namespace Cert.ReferenceIdeal.LossValue

open Cert.ReferenceIdeal Cert.ReferenceIdeal.Gen Idealize.ShloMosaic Idealize.ShloMosaic.TcCoe Idealize.SL.Sem
open Cert.MaskedLogSum

/-- The reference's masked array, element by element, is the masked logarithm of the argument. -/
theorem masked_apply (x0 : (⟨S4096x8192, .f32⟩ : BufTy).Contents (Elt Ideal)) (j : S4096x8192.Idx) :
    Read.val_main_v4 (F := Ideal) x0 j = maskedLog (x0 j) := by
  simp only [Read.val_main_v4_apply, Read.val_main_v3_apply, Read.val_main_v2_apply, Read.val_main_v1_apply,
    Read.val_main_v0_apply, Read.val_main_cst_apply, Read.val_main_call0_v1_apply, Read.val_main_call0_v0_apply,
    Read.val_main_cst_0_apply, Read.val_main_call1_v1_apply, Read.val_main_call1_v0_apply, Read.val_main_cst_1_apply]
  exact reference_elem (x0 j)

/-- The reference's host sum of the masked array, from the zero word, is the total of the masked logarithms. -/
theorem sum_eq (x0 : (⟨S4096x8192, .f32⟩ : BufTy).Contents (Elt Ideal)) :
    Read.val_main_v5 (F := Ideal) x0 = sumLog x0 := by
  funext i
  rw [Read.val_main_v5_apply]
  unfold sumLog
  rw [Finset.sum_congr rfl fun j _ => masked_apply x0 j]
  rfl

/-- The operations after the sum are the shared tail. -/
theorem loss_eq (x0 : (⟨S4096x8192, .f32⟩ : BufTy).Contents (Elt Ideal)) :
    Read.val_main_v11 (F := Ideal) x0 = lossOf (Read.val_main_v5 (F := Ideal) x0) := rfl

/-- THE REFERENCE'S RUN, READ: every weakly fair execution terminates with the result at the loss of the argument array's
    total of masked logarithms, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = lossOf (sumLog (m ((c.tc : Thread nD τ).loc main_arg0)))
      ∧ r.2.mem ((c.tc : Thread nD τ).loc main_arg0) = m ((c.tc : Thread nD τ).loc main_arg0) :=
  (θ_run defs _ _).mono (fun _ h c => ⟨(h c).1.trans (by rw [Read.val_main_v11_eq, loss_eq, sum_eq]), (h c).2⟩)
    (Cert.ReferenceIdeal.Value.run (F := Ideal) m ρ)

end Cert.ReferenceIdeal.LossValue

end
-- ==== Proof.KernelBlocks.lean ====
/-
  What one grid point of the kernel writes back, and what the partial-sums array holds after the region.

  At grid point `t` the body loads the 256 × 8192 block of rows `256·t … 256·t + 255` of the argument, masks its
  logarithm (`log a` where `a ≠ 0`, else `0`), sums down the 256 rows and stores the 8192 column sums as the
  1 × 1 × 8192 block `t` of the partial-sums array. So that array ends, at (t, 0, c), at the sum over `r < 256` of the
  masked logarithm of the argument at (256·t + r, c): `partialSums` of the argument. The 16 blocks tile the array
  (block `t` is exactly the indices with first coordinate `t`), so every index is written.
-/
import proofs.«428072_j73607149519054_3_alg».proof.Proof.Gen.KernelIdeal.Frame
import proofs.«428072_j73607149519054_3_alg».proof.Proof.MaskedLogSum
import Idealize.ShloMosaic.Lib.Pipeline.Value
import Idealize.ShloMosaic.Lib.ValueIdx
import Idealize.ShloMosaic.PureOps.Ideal.Laws

noncomputable section

open scoped BigOperators

namespace Cert.KernelIdeal.LossValue

open Cert.KernelIdeal Cert.KernelIdeal.Gen Idealize.ShloMosaic Idealize.ShloMosaic.TcCoe Idealize.SL.Sem
open Idealize.ShloMosaic.ValueIdx
open Idealize.ShloMosaic.Pipeline (Dat)
open Cert.MaskedLogSum

/-! ## The body's stored value -/

/-- The sum down the rows of a 256 × 8192 vector, at column `c`: the sum over the 256 row coordinates. -/
theorem rowSum_apply (v : FVec Ideal S256x8192 .f32) (c : Fin 8192) :
    multiReduction (F := Ideal) .add [0] S8192 v 0x00000000#32 reduces_S256x8192_S8192 (.inl rfl) rfl (ix1 c)
      = ∑ r : Fin 256, v (ix2 r c) := by
  refine (Ideal.multiReduction_add_single v 0x00000000#32 reduces_S256x8192_S8192 (.inl rfl) rfl (ix1 c)).trans ?_
  refine Finset.sum_congr rfl fun r _ => congrArg v ?_
  funext a
  match a with
  | ⟨0, _⟩ => rfl
  | ⟨1, _⟩ => rfl

/-- THE PAYLOAD: what the body stores, from the block it loaded, is that block's column sums of masked logarithms. -/
theorem payload_eq (x0 : Vec Ideal S256x8192 .f32) : k0_pay1 (F := Ideal) x0 = tileSums x0 := by
  funext j
  obtain ⟨a, b, c, rfl⟩ : ∃ (a : Fin 1) (b : Fin 1) (c : Fin 8192), j = ix3 a b c := ⟨j 0, j 1, j 2, eq_ix3 j⟩
  unfold k0_pay1
  refine (shapeCast_apply _ shapeCasts_S8192_S1x1x8192 (ix3 a b c) (ix1 c) ?_).trans ?_
  · rw [Shape.rowMajor_val_one, Shape.rowMajor_val_three]
    show c.val = (a.val * 1 + b.val) * 8192 + c.val
    have := a.isLt; have := b.isLt; omega
  refine (rowSum_apply _ c).trans ?_
  unfold tileSums
  refine Finset.sum_congr rfl fun r _ => ?_
  exact kernel_elem (x0 (ix2 r c))

/-! ## From the blocks to the array -/

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 16 grid points: the input's row-block index is the output's leading block
    index, which is below 16; every other block index is 0. -/
theorem index_facts : ∀ t : Fin cfg0.N, win0_0.index t (0 : Fin 2) = win0_1.index t (0 : Fin 3)
    ∧ win0_0.index t (1 : Fin 2) = 0
    ∧ win0_1.index t (1 : Fin 3) = 0
    ∧ win0_1.index t (2 : Fin 3) = 0
    ∧ win0_1.index t (0 : Fin 3) ≤ 15 :=
  (by decide +kernel : ∀ t : Fin grid0.N, _)

/-- Every leading block index is some point's. -/
theorem index_onto : ∀ q : Fin 16, ∃ t : Fin cfg0.N, win0_1.index t = ![q.val, 0, 0] :=
  (by decide +kernel : ∀ q : Fin 16, ∃ t : Fin grid0.N, win0_1.index t = ![q.val, 0, 0])

/-- WHAT POINT `t` WRITES BACK is block `t` of the partial sums of the argument array as the region finds it: the body's
    stored value is the column sums of its loaded block, and row `r` of the block loaded at `t` is row `256·t + r` of the
    argument, the tile row the partial sum at (t, 0, c) runs over. -/
theorem flushed_eq (c : Dev nD) (t : Fin cfg0.N) :
    (dats m 0 c).flushed 1 t = ((cfg0.win 1).blk t).view.read (Elt Ideal) (partialSums (V m c main_arg0)) := by
  show (cfg0.win 1).cut (grid0.coords t) ((dats m 0 c).after 1 t) = _
  rw [after0_1]
  unfold out0_1
  rw [View.canon_unit_zero zeros3]
  simp only [View.ld_unit_zero (S := S256x8192) zeros2]
  rw [payload_eq]
  obtain ⟨e0, e1, e2, e3, e4⟩ := index_facts t
  funext j
  show ∑ r : Fin 256, maskedLog (V m c main_arg0 (((cfg0.win 0).blk t).view.emb (ix2 r (j 2))))
    = ∑ r : Fin 256, maskedLog (V m c main_arg0 (ix2 (tileRow ((((cfg0.win 1).blk t).view.emb j) 0) r) ((((cfg0.win 1).blk t).view.emb j) 2)))
  refine Finset.sum_congr rfl fun r _ => congrArg maskedLog (congrArg (V m c main_arg0) ?_)
  funext a; apply Fin.ext
  match a with
  | ⟨0, _⟩ =>
    show win0_0.index t (0 : Fin 2) * 256 + 1 * r.val = 256 * (win0_1.index t (0 : Fin 3) * 1 + 1 * (j 0).val) + r.val
    have hj : (j 0).val < 1 := (j 0).isLt
    omega
  | ⟨1, _⟩ =>
    show win0_0.index t (1 : Fin 2) * 8192 + 1 * (j 2).val = win0_1.index t (2 : Fin 3) * 8192 + 1 * (j 2).val
    omega

/-- An index of the partial-sums array is in point `t`'s block iff each coordinate is in the block's range on its axis. -/
theorem mem_blk (t : Fin cfg0.N) (i : S16x1x8192.Idx) :
    i ∈ ((cfg0.win 1).blk t).view.set ↔ ∀ a : Fin 3, win0_1.index t a * S1x1x8192.size a ≤ (i a).val ∧ (i a).val < win0_1.index t a * S1x1x8192.size a + S1x1x8192.size a := by
  show i ∈ ((View.whole main_v0).slice (win0_1.rect t)).set ↔ _
  rw [View.set_slice_whole, Rect.mem_set_unit]
  exact Iff.rfl

/-- THE COVER: the index (q, 0, c) is in the block of the point whose leading block index is `q`. -/
theorem covered (i : S16x1x8192.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 8192 := (i 2).isLt
  obtain ⟨t, ht⟩ := index_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 8192 ≤ (i 2).val ∧ (i 2).val < win0_1.index t (2 : Fin 3) * 8192 + 8192; omega

/-- THE ARRAY after the region: the partial sums of the argument array as launched. -/
theorem final (c : Dev nD) :
    (dats m 0 c).arrAt 1 cfg0.N = partialSums (m ((c : Thread nD τ).loc main_arg0)) :=
  ((dats m 0 c).arrAt_eq_of_cover 1 (partialSums (V m c main_arg0)) (fun t _ => flushed_eq m c t) covered).trans
    (congrArg partialSums (V_main_arg0 m c))

end Cert.KernelIdeal.LossValue

end
-- ==== Proof.KernelValue.lean ====
/-
  What the kernel's program computes, at the extended reals. After the region the partial-sums array holds the
  partial sums of the argument (the blocks module); the host operations that follow sum it from the zero word — which,
  the partial sums adding up to the whole, is the total of the masked logarithms — and apply the scalar tail. So the
  program's run ends with the result at the shared tail `lossOf` of the total `sumLog` of the argument array: the same
  term the reference's run ends at.
-/
import proofs.«428072_j73607149519054_3_alg».proof.Proof.KernelBlocks
import Idealize.ShloMosaic.Lib.StableHlo.Run

noncomputable section

open scoped BigOperators

namespace Cert.KernelIdeal.LossValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.MaskedLogSum

variable (m : (ℓ : Loc nD τ sig) → Buf (Elt Ideal) ℓ) (ρ : Dev nD → PrngReg)

/-- The result buffer is unscoped and is no window's array: after the run it holds what the host operations after the
    region leave in it. -/
theorem result_mem : main_v7 ∈ Pipeline.restRefs sig spec0 :=
  Pipeline.mem_restRefs_of main_v7 rfl (by decide)

/-- THE HOST TAIL: the operations after the region, run from the region's exit contents (the partial-sums array at the
    partial sums of the argument), leave in the result buffer the loss of the argument's total of masked logarithms. -/
theorem tail_eq (c : Dev nD) :
    Pipeline.afterTail₀ cfgs (dats m) 0 (V0 m) [hostOps1, hostOps1_1] c main_v7
      = lossOf (sumLog (m ((c : Thread nD τ).loc main_arg0))) := by
  unfold Pipeline.afterTail₀
  simp only [hostOps1, hostOps1_1, List.flatten_cons, List.flatten_nil, List.append_nil, List.cons_append, List.nil_append]
  after_results
  have hW : Pipeline.withArrays (cfgs 0).spec c (V0 m c) (fun w => (dats m 0 c).arrAt w (cfgs 0).N) (Proc.devRef .tc main_v0)
      = partialSums (m ((c : Thread nD τ).loc main_arg0)) :=
    (Pipeline.withArrays_arr spec0 launch0.win.arr_inj c _ _ 1).trans (final m c)
  rw [hW, hostSum_partialSums]
  rfl

/-- THE KERNEL PROGRAM'S RUN, READ: every weakly fair execution terminates with the result at the loss of the argument
    array's total of masked logarithms, the argument unchanged (its window stages it and never writes it back). -/
theorem run : θ_run (defs (F := Ideal)) (onTc (τ := τ) (main (F := Ideal))) ⟨m, fun _ => 0, ρ⟩ fun r => ∀ c : Dev nD,
      r.2.mem ((c.tc : Thread nD τ).loc main_v7) = lossOf (sumLog (m ((c.tc : Thread nD τ).loc main_arg0)))
      ∧ r.2.mem ((c.tc : Thread nD τ).loc main_arg0) = m ((c.tc : Thread nD τ).loc main_arg0) :=
  (θ_run defs _ _).mono (fun r h c => ⟨((h c).2 main_v7 result_mem).trans (tail_eq m c),
      ((h c).1 0).trans (((dats m 0 c).arrAt_in 0 rfl _).trans ((A_eq m c 0).trans (V_main_arg0 m c)))⟩)
    (run_main m ρ)

end Cert.KernelIdeal.LossValue

end
-- ==== Proof.lean ====
/- The proof of `Cert.Claim`: the three frames, the (empty) idealization ledger, and the equivalence over the extended reals
   of the tiled masked-log-sum kernel and its jnp reference.

   Both programs compute  loss = if 0 < total then log (1 + max total 0) else 1,  total = C + ½ · Σ_{i,j} ℓ(x i j),  with
   `ℓ a = log a` off zero and `ℓ 0 = 0`, and `C` one f32 literal printed with the same word on both sides. The kernel sums
   each 256-row tile down its rows and then sums the 16 × 1 × 8192 partial sums on the host; the reference sums all
   4096 × 8192 terms at once and takes the logarithm of a guarded argument. The two sums are one (re-indexing rows as
   (tile, row in tile) and exchanging the order of summation, in the commutative monoid of extended reals: no
   finiteness is used), the two element terms are the masked logarithm, and the scalar tail is the same term.
   The kernel program's run is read off its generated frame run (what each grid point writes back, the cover, the host
   operations after the region); the reference's off its generated run and read-at-an-index lemmas. -/
import proofs.«428072_j73607149519054_3_alg».proof.Defs
import proofs.«428072_j73607149519054_3_alg».proof.Proof.Gen.Kernel
import proofs.«428072_j73607149519054_3_alg».proof.Proof.Gen.Kernel.Skeleton
import proofs.«428072_j73607149519054_3_alg».proof.Proof.Gen.Kernel.Launch
import proofs.«428072_j73607149519054_3_alg».proof.Proof.Gen.Kernel.Points
import proofs.«428072_j73607149519054_3_alg».proof.Proof.Gen.Kernel.Frame
import proofs.«428072_j73607149519054_3_alg».proof.Proof.Gen.KernelIdeal
import proofs.«428072_j73607149519054_3_alg».proof.Proof.Gen.KernelIdeal.Skeleton
import proofs.«428072_j73607149519054_3_alg».proof.Proof.Gen.KernelIdeal.Launch
import proofs.«428072_j73607149519054_3_alg».proof.Proof.Gen.KernelIdeal.Points
import proofs.«428072_j73607149519054_3_alg».proof.Proof.Gen.KernelIdeal.Frame
import proofs.«428072_j73607149519054_3_alg».proof.Proof.Gen.ReferenceIdeal
import proofs.«428072_j73607149519054_3_alg».proof.Proof.Gen.Pre_finite_inputs
import proofs.«428072_j73607149519054_3_alg».proof.Proof.Gen.ReferenceIdeal.Run
import proofs.«428072_j73607149519054_3_alg».proof.Proof.Gen.ReferenceIdeal.Read
import proofs.«428072_j73607149519054_3_alg».proof.Proof.MaskedLogSum
import proofs.«428072_j73607149519054_3_alg».proof.Proof.ReferenceValue
import proofs.«428072_j73607149519054_3_alg».proof.Proof.KernelValue
import Idealize.ShloMosaic.Adequacy
import Idealize.ShloMosaic.Init

noncomputable section

namespace Cert.Proof

open Idealize.ShloMosaic Idealize.SL.Sem Cert.Kernel

/-- The word-level kernel program runs and keeps its argument: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both programs end at the loss of the argument's total of masked
    logarithms: the kernel program's run and the reference's run, read, state the same term. -/
theorem algebraic : Cert.algebraic_KernelIdeal_ReferenceIdeal := by
  intro m ρ m' ρ' _ hagree
  refine ⟨fun c => Cert.MaskedLogSum.lossOf (Cert.MaskedLogSum.sumLog (m ((c.tc : Thread Cert.KernelIdeal.nD Cert.KernelIdeal.τ).loc Cert.KernelIdeal.main_arg0))),
    Cert.KernelIdeal.LossValue.run m ρ, ?_⟩
  refine (θ_run Cert.ReferenceIdeal.defs _ _).mono (fun _ h c => ⟨(h c).1.trans ?_, (h c).2⟩)
    (Cert.ReferenceIdeal.LossValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
